-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S400000x64 : Shape := ⟨2, ![400000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64x64 .f32) (main_arg11 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64 .f32) (main_arg7 : FVec F S64x64 .f32) (main_arg8 : FVec F S64 .f32) (main_arg9 : FVec F S64x64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S200000x64 .f32) (main_arg1 : FVec F S200000x64 .f32) (main_arg2 : FVec F S400000x64 .f32) (main_arg3 : IVec S2x1000000 32) (main_arg4 : IVec S2x1000000 32) (main_arg5 : FVec F S64x64 .f32) (main_arg6 : FVec F S64 .f32) (main_arg7 : FVec F S64x64 .f32) (main_arg8 : FVec F S64 .f32) (main_arg9 : FVec F S64x64 .f32) (main_arg10 : FVec F S64x64 .f32) (main_arg11 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S400000x64 .f32 := Host.absf main_arg2
  let main_cst_2 : FVec F S_ .f32 := constant S_ .f32 0x7F800000#32
  let main_v10 : FVec F S400000x64 .f32 := broadcastInDim S400000x64 ![] bcast_S_S400000x64 main_cst_2
  let main_v11 : IVec S400000x64 1 := cmpf .olt main_v9 main_v10
  let main_c_3 : IVec S_ 1 := constantI S_ 1 1#1
  let main_v12 : IVec S_ 1 := (fun x v => Host.reduce IntOp.andi x v reducesTo_S400000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_v13 main_v16
-- ==== Kernel.lean ====
abbrev S200000x64 : Shape := ⟨2, ![200000, 64]⟩
abbrev S400000x64 : Shape := ⟨2, ![400000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S400000 : Shape := ⟨1, ![400000]⟩
abbrev S400000x1 : Shape := ⟨2, ![400000, 1]⟩
abbrev S200000x128 : Shape := ⟨2, ![200000, 128]⟩

abbrev nBuf : Space → Nat
  | .hbm => 102
  | .vmem => 33
  | .smem => 0
  | _ => 0

abbrev bufTy : (tb : Table) → Fin (tcTables nBuf tb) → BufTy
  | .hbm, ⟨0, _⟩ => ⟨S200000x64, .f32⟩
  | .hbm, ⟨1, _⟩ => ⟨S200000x64, .f32⟩
  | .hbm, ⟨2, _⟩ => ⟨S400000x64, .f32⟩
  | .hbm, ⟨3, _⟩ => ⟨S2x1000000, .i32⟩
  | .hbm, ⟨4, _⟩ => ⟨S2x1000000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S1x64, .f32⟩
  | .hbm, ⟨35, _⟩ => ⟨S1x64, .f32⟩
  | .hbm, ⟨36, _⟩ => ⟨S1000000x64, .f32⟩
  | .hbm, ⟨37, _⟩ => ⟨S_, .f32⟩
  | .hbm, ⟨38, _⟩ => ⟨S200000x64, .f32⟩
  | .hbm, ⟨39, _⟩ => ⟨S1000000x1, .i32⟩
  | .hbm, ⟨40, _⟩ => ⟨S200000x64, .f32⟩
  | .hbm, ⟨41, _⟩ => ⟨S1x1000000, .i32⟩
  | .hbm, ⟨42, _⟩ => ⟨S1000000, .i32⟩
  | .hbm, ⟨43, _⟩ => ⟨S1x1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S400000x64, .f32⟩
  | .hbm, ⟨57, _⟩ => ⟨S1000000x1, .i32⟩
  | .hbm, ⟨58, _⟩ => ⟨S400000x64, .f32⟩
  | .hbm, ⟨59, _⟩ => ⟨S_, .f32⟩
  | .hbm, ⟨60, _⟩ => ⟨S1000000, .f32⟩
  | .hbm, ⟨61, _⟩ => ⟨S_, .f32⟩
  | .hbm, ⟨62, _⟩ => ⟨S400000, .f32⟩
  | .hbm, ⟨63, _⟩ => ⟨S1000000x1, .i32⟩
  | .hbm, ⟨64, _⟩ => ⟨S400000, .f32⟩
  | .hbm, ⟨65, _⟩ => ⟨S_, .f32⟩
  | .hbm, ⟨66, _⟩ => ⟨S400000, .f32⟩
  | .hbm, ⟨67, _⟩ => ⟨S400000, .f32⟩
  | .hbm, ⟨68, _⟩ => ⟨S400000x1, .f32⟩
  | .hbm, ⟨69, _⟩ => ⟨S400000x64, .f32⟩
  | .hbm, ⟨70, _⟩ => ⟨S400000x64, .f32⟩
  | .hbm, ⟨71, _⟩ => ⟨S1x64, .f32⟩
  | .hbm, ⟨72, _⟩ => ⟨S400000x64, .f32⟩
  | .hbm, ⟨73, _⟩ => ⟨S200000x64, .f32⟩
  | .hbm, ⟨74, _⟩ => ⟨S200000x64, .f32⟩
  | .hbm, ⟨75, _⟩ => ⟨S200000x128, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x64, .f32⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1000000x64, .f32⟩
  | .hbm, ⟨94, _⟩ => ⟨S1x64, .f32⟩
  | .hbm, ⟨95, _⟩ => ⟨S1x64, .f32⟩
  | .hbm, ⟨96, _⟩ => ⟨S1000000x64, .f32⟩
  | .hbm, ⟨97, _⟩ => ⟨S_, .f32⟩
  | .hbm, ⟨98, _⟩ => ⟨S200000x64, .f32⟩
  | .hbm, ⟨99, _⟩ => ⟨S1000000x1, .i32⟩
  | .hbm, ⟨100, _⟩ => ⟨S200000x64, .f32⟩
  | .hbm, ⟨101, _⟩ => ⟨S200000x128, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem6_1 : DmaSem sig := 32

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S200000x64 : S_.BroadcastsInDim S200000x64 (![] : Fin 0 → Fin S200000x64.rank)
  bcast_S_S400000x64 : S_.BroadcastsInDim S400000x64 (![] : Fin 0 → Fin S400000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  slices_S400000x64_S200000x64_0_0 : S400000x64.Slices ![0, 0] S200000x64
  concatenates_S200000x64_S200000x64_S200000x128_d1 : Shape.Concatenates [S200000x64, S200000x64] S200000x128 1
  gather_S200000x64_S1000000x1_S1000000x64_1_0_n_n_0_1_164_wf : GatherDims.WF S200000x64 S1000000x1 S1000000x64 [1] [0] [] [0] [] 1 ![1, 64]
  dot_S10000x64_S64x64_S10000x64_1_0_0_1_n_n_wf : DotDims.WF S10000x64 S64x64 S10000x64 [1] [0] [0] [1] [] []
  scatter_S200000x64_S1000000x1_S1000000x64_1_0_0_1_wf : ScatterDims.WF S200000x64 S1000000x1 S1000000x64 [1] [0] [0] 1
  gather_S400000x64_S1000000x1_S1000000x64_1_0_n_n_0_1_164_wf : GatherDims.WF S400000x64 S1000000x1 S1000000x64 [1] [0] [] [0] [] 1 ![1, 64]
  scatter_S400000x64_S1000000x1_S1000000x64_1_0_0_1_wf : ScatterDims.WF S400000x64 S1000000x1 S1000000x64 [1] [0] [0] 1
  scatter_S400000_S1000000x1_S1000000_n_0_0_1_wf : ScatterDims.WF S400000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S1000000x64.size a
  hwx0_6 : ∀ i : grid0.Coords, EltTy.bits .f32 = 32 ∨ (Rect.block (s := S1000000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1000000x64.size a
  hwx1_2 : ∀ i : grid1.Coords, EltTy.bits .f32 = 32 ∨ (Rect.block (s := S1000000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S400000x64.size a
  hwx2_0 : ∀ i : grid2.Coords, EltTy.bits .f32 = 32 ∨ (Rect.block (s := S400000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S400000x64.size a
  hwx2_1 : ∀ i : grid2.Coords, EltTy.bits .f32 = 32 ∨ (Rect.block (s := S400000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S400000x64.size a
  hwx2_4 : ∀ i : grid2.Coords, EltTy.bits .f32 = 32 ∨ (Rect.block (s := S400000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1000000x64.size a
  hwx3_0 : ∀ i : grid3.Coords, EltTy.bits .f32 = 32 ∨ (Rect.block (s := S1000000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S1000000x64.size a
  hwx3_1 : ∀ i : grid3.Coords, EltTy.bits .f32 = 32 ∨ (Rect.block (s := S1000000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S1000000x64.size a
  hwx3_6 : ∀ i : grid3.Coords, EltTy.bits .f32 = 32 ∨ (Rect.block (s := S1000000x64) S10000x64.size (cc3_transform_6 i) (hinb3_6 i)).WholeWords (EltTy.packing .f32)

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S400000x64_S1000000x1_S1000000x64_1_0_n_n_0_1_164 : GatherDims S400000x64 S1000000x1 S1000000x64 where
  offsetDims := [1]
  collapsedSliceDims := [0]
  operandBatchingDims := []
  startIndicesBatchingDims := []
  startIndexMap := [0]
  indexVectorDim := 1
  sliceSizes := ![1, 64]
  wf := gather_S400000x64_S1000000x1_S1000000x64_1_0_n_n_0_1_164_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x64 : Shape := ⟨2, ![200000, 64]⟩
abbrev S400000x64 : Shape := ⟨2, ![400000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S400000 : Shape := ⟨1, ![400000]⟩
abbrev S400000x1 : Shape := ⟨2, ![400000, 1]⟩
abbrev S200000x128 : Shape := ⟨2, ![200000, 128]⟩

abbrev nBuf : Space → Nat
  | .hbm => 130
  | .vmem => 0
  | .smem => 0
  | _ => 0

abbrev hbmTy0_0 (i : Nat) : BufTy := match i % 128 with
  | 0 => ⟨S200000x64, .f32⟩
  | 1 => ⟨S200000x64, .f32⟩
  | 2 => ⟨S400000x64, .f32⟩
  | 3 => ⟨S2x1000000, .i32⟩
  | 4 => ⟨S2x1000000, .i32⟩
  | 5 => ⟨S64x64, .f32⟩
  | 6 => ⟨S64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S1x1000000, .i32⟩
  | 13 => ⟨S1000000, .i32⟩
  | 14 => ⟨S1x1000000, .i32⟩
  | 15 => ⟨S1000000, .i32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S1000000x64, .f32⟩
  | 35 => ⟨S1x64, .f32⟩
  | 36 => ⟨S1000000x64, .f32⟩
  | 37 => ⟨S1000000x64, .f32⟩
  | 38 => ⟨S1000000x64, .f32⟩
  | 39 => ⟨S1000000x64, .f32⟩
  | 40 => ⟨S1000000x64, .f32⟩
  | 41 => ⟨S1x64, .f32⟩
  | 42 => ⟨S1000000x64, .f32⟩
  | 43 => ⟨S1000000x64, .f32⟩
  | 44 => ⟨S_, .f32⟩
  | 45 => ⟨S200000x64, .f32⟩
  | 46 => ⟨S1000000x1, .i32⟩
  | 47 => ⟨S200000x64, .f32⟩
  | 48 => ⟨S1x1000000, .i32⟩
  | 49 => ⟨S1000000, .i32⟩
  | 50 => ⟨S1x1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S_, .f32⟩
  | 63 => ⟨S400000x64, .f32⟩
  | 64 => ⟨S1000000x1, .i32⟩
  | 65 => ⟨S400000x64, .f32⟩
  | 66 => ⟨S_, .f32⟩
  | 67 => ⟨S1000000, .f32⟩
  | 68 => ⟨S_, .f32⟩
  | 69 => ⟨S400000, .f32⟩
  | 70 => ⟨S1000000x1, .i32⟩
  | 71 => ⟨S400000, .f32⟩
  | 72 => ⟨S_, .f32⟩
  | 73 => ⟨S400000, .f32⟩
  | 74 => ⟨S400000, .f32⟩
  | 75 => ⟨S400000x1, .f32⟩
  | 76 => ⟨S400000x64, .f32⟩
  | 77 => ⟨S400000x64, .f32⟩
  | 78 => ⟨S400000x64, .f32⟩
  | 79 => ⟨S400000x64, .f32⟩
  | 80 => ⟨S1x64, .f32⟩
  | 81 => ⟨S400000x64, .f32⟩
  | 82 => ⟨S400000x64, .f32⟩
  | 83 => ⟨S200000x64, .f32⟩
  | 84 => ⟨S200000x64, .f32⟩
  | 85 => ⟨S200000x128, .f32⟩
  | 86 => ⟨S1x1000000, .i32⟩
  | 87 => ⟨S1000000, .i32⟩
  | 88 => ⟨S1x1000000, .i32⟩
  | 89 => ⟨S1000000, .i32⟩
  | 90 => ⟨S1x1000000, .i32⟩
  | 91 => ⟨S1x1000000, .i32⟩
  | 92 => ⟨S2x1000000, .i32⟩
  | 93 => ⟨S1x1000000, .i32⟩
  | 94 => ⟨S1000000, .i32⟩
  | 95 => ⟨S1x1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1000000x64, .f32⟩
  | 116 => ⟨S1x64, .f32⟩
  | 117 => ⟨S1000000x64, .f32⟩
  | 118 => ⟨S1000000x64, .f32⟩
  | 119 => ⟨S1000000x64, .f32⟩
  | 120 => ⟨S1000000x64, .f32⟩
  | 121 => ⟨S1000000x64, .f32⟩
  | 122 => ⟨S1x64, .f32⟩
  | 123 => ⟨S1000000x64, .f32⟩
  | 124 => ⟨S1000000x64, .f32⟩
  | 125 => ⟨S_, .f32⟩
  | 126 => ⟨S200000x64, .f32⟩
  | 127 => ⟨S1000000x1, .i32⟩
  | _ => ⟨S200000x64, .f32⟩

abbrev hbmTy0_1 (i : Nat) : BufTy := match i % 128 with
  | 0 => ⟨S200000x64, .f32⟩
  | 1 => ⟨S200000x128, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_11 : Ref sig .tc := ⟨.hbm, 106, rfl⟩
abbrev main_v81 : Ref sig .tc := ⟨.hbm, 107, rfl⟩
abbrev main_v82 : Ref sig .tc := ⟨.hbm, 108, rfl⟩
abbrev main_c_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_13 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S200000x64 : S_.BroadcastsInDim S200000x64 (![] : Fin 0 → Fin S200000x64.rank)
  bcast_S_S400000x64 : S_.BroadcastsInDim S400000x64 (![] : Fin 0 → Fin S400000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  bcast_S1x64_S400000x64_0_1 : S1x64.BroadcastsInDim S400000x64 (![0, 1] : Fin 2 → Fin S400000x64.rank)
  slices_S400000x64_S200000x64_0_0 : S400000x64.Slices ![0, 0] S200000x64
  concatenates_S200000x64_S200000x64_S200000x128_d1 : Shape.Concatenates [S200000x64, S200000x64] S200000x128 1
  bcast_S1000000_S1x1000000_1 : S1000000.BroadcastsInDim S1x1000000 (![1] : Fin 1 → Fin S1x1000000.rank)
  concatenates_S1x1000000_S1x1000000_S2x1000000_d0 : Shape.Concatenates [S1x1000000, S1x1000000] S2x1000000 0
  gather_S200000x64_S1000000x1_S1000000x64_1_0_n_n_0_1_164_wf : GatherDims.WF S200000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S200000x64_S1000000x1_S1000000x64_1_0_0_1_wf : ScatterDims.WF S200000x64 S1000000x1 S1000000x64 [1] [0] [0] 1
  gather_S400000x64_S1000000x1_S1000000x64_1_0_n_n_0_1_164_wf : GatherDims.WF S400000x64 S1000000x1 S1000000x64 [1] [0] [] [0] [] 1 ![1, 64]
  scatter_S400000x64_S1000000x1_S1000000x64_1_0_0_1_wf : ScatterDims.WF S400000x64 S1000000x1 S1000000x64 [1] [0] [0] 1
  scatter_S400000_S1000000x1_S1000000_n_0_0_1_wf : ScatterDims.WF S400000 S1000000x1 S1000000 [] [0] [0] 1
  dot_S400000x64_S64x64_S400000x64_1_0_0_1_n_n_wf : DotDims.WF S400000x64 S64x64 S400000x64 [1] [0] [0] [1] [] []

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S400000x64_S1000000x1_S1000000x64_1_0_n_n_0_1_164 : GatherDims S400000x64 S1000000x1 S1000000x64 where
  offsetDims := [1]
  collapsedSliceDims := [0]
  operandBatchingDims := []
  startIndicesBatchingDims := []
  startIndexMap := [0]
  indexVectorDim := 1
  sliceSizes := ![1, 64]
  wf := gather_S400000x64_S1000000x1_S1000000x64_1_0_n_n_0_1_164_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf

class Facts : Prop extends Facts₀ where

variable [Facts]
-- ==== Proof.Rows.lean ====
/-
  The three row-wise message functions of the network, as whole arrays read index by index.

  Every message in this network is computed row by row: row `r` of the result depends on row `r` of the
  feature arrays, on a 64 × 64 weight and on a bias row. With `x·w` at entry `(r, q)` the sum over `k` of
  `x (r, k) · w (k, q)`:
    * the pair message is `((xj·w1 + b1) + (xi ∘ xj)·w2) + b2`, with `∘` the entrywise product;
    * the relation message is `x·w`;
    * the root update is `(agg + x·w) + b`.
  The number of rows `M` is a parameter, so that a block of rows and the whole array are values of one function.
-/
import Idealize.ShloMosaic.PureOps.Ideal
import Idealize.ShloMosaic.Lib.ValueIdx

noncomputable section

namespace Cert.GNN

open Idealize.ShloMosaic Idealize.ShloMosaic.ValueIdx

variable {M : ℕ}

/-- The pair message: `((xj·w1 + b1) + (xi ∘ xj)·w2) + b2`, the biases one row broadcast over all rows. -/
def ngcfRows (xj xi : FVec Ideal ⟨2, ![M, 64]⟩ .f32) (w1 : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) : FVec Ideal ⟨2, ![M, 64]⟩ .f32 :=
  fun j => ((∑ k : Fin 64, xj (ix2 (j 0) k) * w1 (ix2 k (j 1))) + b1 (ix2 0 (j 1))
      + ∑ k : Fin 64, (xi (ix2 (j 0) k) * xj (ix2 (j 0) k)) * w2 (ix2 k (j 1))) + b2 (ix2 0 (j 1))

/-- The relation message: `x·w`. -/
def linRows (x : FVec Ideal ⟨2, ![M, 64]⟩ .f32) (w : FVec Ideal ⟨2, ![64, 64]⟩ .f32) : FVec Ideal ⟨2, ![M, 64]⟩ .f32 :=
  fun j => ∑ k : Fin 64, x (ix2 (j 0) k) * w (ix2 k (j 1))

/-- The root update: `(agg + x·w) + b`, the bias one row broadcast over all rows. -/
def rootRows (agg x : FVec Ideal ⟨2, ![M, 64]⟩ .f32) (w : FVec Ideal ⟨2, ![64, 64]⟩ .f32) (b : FVec Ideal ⟨2, ![1, 64]⟩ .f32) :
    FVec Ideal ⟨2, ![M, 64]⟩ .f32 :=
  fun j => (agg j + ∑ k : Fin 64, x (ix2 (j 0) k) * w (ix2 k (j 1))) + b (ix2 0 (j 1))

theorem ngcfRows_apply (xj xi : FVec Ideal ⟨2, ![M, 64]⟩ .f32) (w1 : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) (r : Fin M) (q : Fin 64) :
    ngcfRows xj xi w1 b1 w2 b2 (ix2 r q)
      = ((∑ k : Fin 64, xj (ix2 r k) * w1 (ix2 k q)) + b1 (ix2 0 q)
          + ∑ k : Fin 64, (xi (ix2 r k) * xj (ix2 r k)) * w2 (ix2 k q)) + b2 (ix2 0 q) := rfl

theorem linRows_apply (x : FVec Ideal ⟨2, ![M, 64]⟩ .f32) (w : FVec Ideal ⟨2, ![64, 64]⟩ .f32) (r : Fin M) (q : Fin 64) :
    linRows x w (ix2 r q) = ∑ k : Fin 64, x (ix2 r k) * w (ix2 k q) := rfl

theorem rootRows_apply (agg x : FVec Ideal ⟨2, ![M, 64]⟩ .f32) (w : FVec Ideal ⟨2, ![64, 64]⟩ .f32) (b : FVec Ideal ⟨2, ![1, 64]⟩ .f32)
    (r : Fin M) (q : Fin 64) :
    rootRows agg x w b (ix2 r q) = (agg (ix2 r q) + ∑ k : Fin 64, x (ix2 r k) * w (ix2 k q)) + b (ix2 0 q) := rfl

end Cert.GNN

end
-- ==== Proof.Spec.lean ====
/-
  The two results of the network as functions of its argument arrays.

  An edge list `e` has two rows of 1,000,000 node ids: row 0 the sources, row 1 the targets. A node id below zero
  counts from the end (`wrap`). Features are gathered at wrapped ids, a message is computed per edge, and messages
  are summed into their target node (`segSum`). The user result is the user features beside the summed pair messages
  along the reversed edges; the movie result is the movie features beside the summed pair messages along the edges
  plus the first 200,000 rows of the entity update, which is the mean relation message into a node (the sum over the
  count, the count at least one) taken through the root update.
-/
import proofs.«140166_j34076270526866_1_alg».proof.Proof.Gen.KernelIdeal
import proofs.«140166_j34076270526866_1_alg».proof.Proof.Rows

noncomputable section

namespace Cert.GNN

open Idealize.ShloMosaic Idealize.ShloMosaic.TcCoe Cert.KernelIdeal Cert.KernelIdeal.Facts₀ Cert.KernelIdeal.Facts

/-- Row 0 of an edge list: the source ids. -/
def srcRow (e : IVec S2x1000000 32) : IVec S1000000 32 :=
  shapeCast S1000000 (extractStridedSlice S1x1000000 ![0, 0] e slices_S2x1000000_S1x1000000_0_0) shapeCasts_S1x1000000_S1000000

/-- Row 1 of an edge list: the target ids. -/
def dstRow (e : IVec S2x1000000 32) : IVec S1000000 32 :=
  shapeCast S1000000 (extractStridedSlice S1x1000000 ![1, 0] e slices_S2x1000000_S1x1000000_1_0) shapeCasts_S1x1000000_S1000000

/-- Ids as one column, an id below zero moved up by the number of rows `n`. -/
def wrap (n : BitVec 32) (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 n))) i)

/-- One feature row per edge, out of 200,000 rows. -/
def rowsAt2 (x : FVec Ideal S200000x64 .f32) (i : IVec S1000000 32) : FVec Ideal S1000000x64 .f32 :=
  Host.gather gather_S200000x64_S1000000x1_S1000000x64_1_0_n_n_0_1_164 x (wrap 200000#32 i)

/-- One feature row per edge, out of 400,000 rows. -/
def rowsAt4 (x : FVec Ideal S400000x64 .f32) (i : IVec S1000000 32) : FVec Ideal S1000000x64 .f32 :=
  Host.gather gather_S400000x64_S1000000x1_S1000000x64_1_0_n_n_0_1_164 x (wrap 400000#32 i)

/-- Per-edge rows summed into 200,000 nodes. -/
def segSum2 (i : IVec S1000000 32) (u : FVec Ideal S1000000x64 .f32) : FVec Ideal S200000x64 .f32 :=
  Host.scatterAdd scatter_S200000x64_S1000000x1_S1000000x64_1_0_0_1
    (broadcastInDim S200000x64 ![] bcast_S_S200000x64 (constant (F := Ideal) S_ .f32 0x00000000#32))
    (broadcastInDim S1000000x1 ![0] bcast_S1000000_S1000000x1_0 i) u

/-- Per-edge rows summed into 400,000 nodes. -/
def segSum4 (i : IVec S1000000 32) (u : FVec Ideal S1000000x64 .f32) : FVec Ideal S400000x64 .f32 :=
  Host.scatterAdd scatter_S400000x64_S1000000x1_S1000000x64_1_0_0_1
    (broadcastInDim S400000x64 ![] bcast_S_S400000x64 (constant (F := Ideal) S_ .f32 0x00000000#32))
    (broadcastInDim S1000000x1 ![0] bcast_S1000000_S1000000x1_0 i) u

/-- The number of edges into each of 400,000 nodes, at least one, spread over the 64 columns. -/
def degree4 (i : IVec S1000000 32) : FVec Ideal S400000x64 .f32 :=
  broadcastInDim S400000x64 ![0, 1] bcast_S400000x1_S400000x64_0_1
    (broadcastInDim S400000x1 ![0] bcast_S400000_S400000x1_0
      (maximumf
        (Host.scatterAdd scatter_S400000_S1000000x1_S1000000_n_0_0_1
          (broadcastInDim S400000 ![] bcast_S_S400000 (constant (F := Ideal) S_ .f32 0x00000000#32))
          (broadcastInDim S1000000x1 ![0] bcast_S1000000_S1000000x1_0 i)
          (broadcastInDim S1000000 ![] bcast_S_S1000000 (constant (F := Ideal) S_ .f32 0x3F800000#32)))
        (broadcastInDim S400000 ![] bcast_S_S400000 (constant (F := Ideal) S_ .f32 0x3F800000#32))))

/-- A bias vector as one row. -/
def asRow (b : FVec Ideal S64 .f32) : FVec Ideal S1x64 .f32 := shapeCast S1x64 b shapeCasts_S64_S1x64

/-- Features beside messages: 64 columns each. -/
def beside (a b : FVec Ideal S200000x64 .f32) : FVec Ideal S200000x128 .f32 :=
  concatenate S200000x128 1 [⟨S200000x64, a⟩, ⟨S200000x64, b⟩] concatenates_S200000x64_S200000x64_S200000x128_d1

/-- The summed pair messages along an edge list whose sources are `s` and targets `d`. -/
def pairSum (x : FVec Ideal S200000x64 .f32) (s d : IVec S1000000 32) (w1 : FVec Ideal S64x64 .f32) (b1 : FVec Ideal S64 .f32)
    (w2 : FVec Ideal S64x64 .f32) (b2 : FVec Ideal S64 .f32) : FVec Ideal S200000x64 .f32 :=
  segSum2 d (ngcfRows (M := 1000000) (rowsAt2 x s) (rowsAt2 x d) w1 (asRow b1) w2 (asRow b2))

/-- The entity update: the mean relation message into each node through the root update. -/
def entityUpd (x : FVec Ideal S400000x64 .f32) (e : IVec S2x1000000 32) (wrel wroot : FVec Ideal S64x64 .f32) (b : FVec Ideal S64 .f32) :
    FVec Ideal S400000x64 .f32 :=
  rootRows (M := 400000)
    (Host.divf (segSum4 (dstRow e) (linRows (M := 1000000) (rowsAt4 x (srcRow e)) wrel)) (degree4 (dstRow e)))
    x wroot (asRow b)

/-- The user result: the user features beside the pair messages summed along the REVERSED edges. -/
def userEmb (ux : FVec Ideal S200000x64 .f32) (e : IVec S2x1000000 32) (w1 : FVec Ideal S64x64 .f32) (b1 : FVec Ideal S64 .f32)
    (w2 : FVec Ideal S64x64 .f32) (b2 : FVec Ideal S64 .f32) : FVec Ideal S200000x128 .f32 :=
  beside ux (pairSum ux (dstRow e) (srcRow e) w1 b1 w2 b2)

/-- The movie result: the movie features beside the pair messages summed along the edges plus the entity update's
    first 200,000 rows. -/
def movieEmb (mx : FVec Ideal S200000x64 .f32) (ex : FVec Ideal S400000x64 .f32) (e e' : IVec S2x1000000 32)
    (w1 : FVec Ideal S64x64 .f32) (b1 : FVec Ideal S64 .f32) (w2 : FVec Ideal S64x64 .f32) (b2 : FVec Ideal S64 .f32)
    (wrel wroot : FVec Ideal S64x64 .f32) (b : FVec Ideal S64 .f32) : FVec Ideal S200000x128 .f32 :=
  beside mx (addf (pairSum mx (srcRow e) (dstRow e) w1 b1 w2 b2)
    (extractStridedSlice S200000x64 ![0, 0] (entityUpd ex e' wrel wroot b) slices_S400000x64_S200000x64_0_0))

end Cert.GNN

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Pay.lean ====
/-
  What one grid point of each kernel computes, read index by index.

  Each kernel body loads a block of 10,000 feature rows, a 64 × 64 weight (two for the pair message) and a bias row,
  narrows the factors to a shorter float format, which at the ideal values changes nothing, multiplies on the matrix unit
  into a zero accumulator, and adds the broadcast bias. Entry `(p, q)` of a product into zero is the sum over `k` of
  `lhs (p, k) · rhs (k, q)`, and a bias row broadcast over the rows is its entry `(0, q)`: so each body's stored value is
  the row-wise message function of its loaded blocks, at 10,000 rows.
-/
import proofs.«140166_j34076270526866_1_alg».proof.Proof.Gen.KernelIdeal.Skeleton
import proofs.«140166_j34076270526866_1_alg».proof.Proof.LibDot
import proofs.«140166_j34076270526866_1_alg».proof.Proof.Rows
import Idealize.ShloMosaic.Lib.Pipeline.Value

noncomputable section

namespace Cert.GNN

open Idealize.ShloMosaic Idealize.ShloMosaic.TcCoe Idealize.ShloMosaic.ValueIdx Cert.KernelIdeal Cert.KernelIdeal.Gen

/-- The printed contraction is the plain rows-by-columns one. -/
theorem blockDot_eq : dot_S10000x64_S64x64_S10000x64_1_0_0_1_n_n = DotDims.plain 10000 64 64 := rfl

/-- A block of rows against a weight, into the zero accumulator, at entry `(p, q)`. -/
theorem blockDot_apply {φ₁ φ₂ : FTy} (a : FVec Ideal S10000x64 φ₁) (w : FVec Ideal S64x64 φ₂) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  rw [blockDot_eq]
  exact matmul_plain_zero_apply none a w p q

/-- A bias row broadcast over the block's rows, at entry `(p, q)`, is the row's entry `q`. -/
theorem biasRow_apply (b : FVec Ideal S1x64 .f32) (p : Fin 10000) (q : Fin 64) :
    broadcastTo S10000x64 b broadcasts_S1x64_S10000x64 (ix2 p q) = b (ix2 0 q) := by
  refine broadcastTo_apply b broadcasts_S1x64_S10000x64 (ix2 p q) (ix2 0 q) fun a => ?_
  match a with
  | ⟨0, _⟩ => rfl
  | ⟨1, _⟩ => rfl

/-- The pair-message body (first launch). -/
theorem pay0_eq (x0 x1 : Vec Ideal S10000x64 .f32) (w1 w2 : Vec Ideal S64x64 .f32) (b1 b2 : Vec Ideal S1x64 .f32) :
    k0_pay1 x0 x1 w1 w2 b1 b2 = ngcfRows (M := 10000) x0 x1 w1 b1 w2 b2 := by
  funext j
  obtain ⟨p, q, rfl⟩ : ∃ (p : Fin 10000) (q : Fin 64), j = ix2 p q := ⟨j 0, j 1, eq_ix2 j⟩
  rw [ngcfRows_apply]
  unfold k0_pay1
  rw [addf_apply, addf_apply, addf_apply, blockDot_apply, blockDot_apply, biasRow_apply, biasRow_apply]
  simp only [truncf_apply, mulf_apply, shapeCast_self]

/-- The relation-message body. -/
theorem pay1_eq (x0 : Vec Ideal S10000x64 .f32) (w : Vec Ideal S64x64 .f32) :
    k1_pay1 x0 w = linRows (M := 10000) x0 w := by
  funext j
  obtain ⟨p, q, rfl⟩ : ∃ (p : Fin 10000) (q : Fin 64), j = ix2 p q := ⟨j 0, j 1, eq_ix2 j⟩
  rw [linRows_apply]
  unfold k1_pay1
  rw [blockDot_apply]
  simp only [truncf_apply, shapeCast_self]

/-- The root-update body: its first loaded block is the features, its third the aggregate. -/
theorem pay2_eq (x : Vec Ideal S10000x64 .f32) (w : Vec Ideal S64x64 .f32) (agg : Vec Ideal S10000x64 .f32) (b : Vec Ideal S1x64 .f32) :
    k2_pay1 x w agg b = rootRows (M := 10000) agg x w b := by
  funext j
  obtain ⟨p, q, rfl⟩ : ∃ (p : Fin 10000) (q : Fin 64), j = ix2 p q := ⟨j 0, j 1, eq_ix2 j⟩
  rw [rootRows_apply]
  unfold k2_pay1
  rw [addf_apply, addf_apply, blockDot_apply, biasRow_apply]
  simp only [truncf_apply, shapeCast_self]

/-- The pair-message body (second launch). -/
theorem pay3_eq (x0 x1 : Vec Ideal S10000x64 .f32) (w1 w2 : Vec Ideal S64x64 .f32) (b1 b2 : Vec Ideal S1x64 .f32) :
    k3_pay1 x0 x1 w1 w2 b1 b2 = ngcfRows (M := 10000) x0 x1 w1 b1 w2 b2 := by
  funext j
  obtain ⟨p, q, rfl⟩ : ∃ (p : Fin 10000) (q : Fin 64), j = ix2 p q := ⟨j 0, j 1, eq_ix2 j⟩
  rw [ngcfRows_apply]
  unfold k3_pay1
  rw [addf_apply, addf_apply, addf_apply, blockDot_apply, blockDot_apply, biasRow_apply, biasRow_apply]
  simp only [truncf_apply, mulf_apply, shapeCast_self]

end Cert.GNN

end
-- ==== Proof.RowsAt.lean ====
/-
  A row-wise message depends on one row.

  Entry `(p, q)` of each message function reads row `p` of the feature arrays, column `q` of the weights and entry
  `q` of the bias row, and nothing else. So if row `p` of a block is row `r` of a larger array, and the weights and
  biases agree, the block's message at `(p, q)` is the array's message at `(r, q)`.
-/
import proofs.«140166_j34076270526866_1_alg».proof.Proof.Rows

noncomputable section

namespace Cert.GNN

open Idealize.ShloMosaic Idealize.ShloMosaic.ValueIdx

variable {M N : ℕ}

theorem ngcfRows_row (x0 x1 : FVec Ideal ⟨2, ![M, 64]⟩ .f32) (A0 A1 : FVec Ideal ⟨2, ![N, 64]⟩ .f32)
    (w1 w2 W1 W2 : FVec Ideal ⟨2, ![64, 64]⟩ .f32) (b1 b2 B1 B2 : FVec Ideal ⟨2, ![1, 64]⟩ .f32)
    (p : Fin M) (r : Fin N) (q : Fin 64)
    (h0 : ∀ k : Fin 64, x0 (ix2 p k) = A0 (ix2 r k)) (h1 : ∀ k : Fin 64, x1 (ix2 p k) = A1 (ix2 r k))
    (hw1 : ∀ k : Fin 64, w1 (ix2 k q) = W1 (ix2 k q)) (hw2 : ∀ k : Fin 64, w2 (ix2 k q) = W2 (ix2 k q))
    (hb1 : b1 (ix2 0 q) = B1 (ix2 0 q)) (hb2 : b2 (ix2 0 q) = B2 (ix2 0 q)) :
    ngcfRows x0 x1 w1 b1 w2 b2 (ix2 p q) = ngcfRows A0 A1 W1 B1 W2 B2 (ix2 r q) := by
  rw [ngcfRows_apply, ngcfRows_apply]
  simp only [h0, h1, hw1, hw2, hb1, hb2]

theorem linRows_row (x0 : FVec Ideal ⟨2, ![M, 64]⟩ .f32) (A0 : FVec Ideal ⟨2, ![N, 64]⟩ .f32)
    (w W : FVec Ideal ⟨2, ![64, 64]⟩ .f32) (p : Fin M) (r : Fin N) (q : Fin 64)
    (h0 : ∀ k : Fin 64, x0 (ix2 p k) = A0 (ix2 r k)) (hw : ∀ k : Fin 64, w (ix2 k q) = W (ix2 k q)) :
    linRows x0 w (ix2 p q) = linRows A0 W (ix2 r q) := by
  rw [linRows_apply, linRows_apply]
  simp only [h0, hw]

theorem rootRows_row (g x0 : FVec Ideal ⟨2, ![M, 64]⟩ .f32) (G A0 : FVec Ideal ⟨2, ![N, 64]⟩ .f32)
    (w W : FVec Ideal ⟨2, ![64, 64]⟩ .f32) (b B : FVec Ideal ⟨2, ![1, 64]⟩ .f32) (p : Fin M) (r : Fin N) (q : Fin 64)
    (hg : g (ix2 p q) = G (ix2 r q)) (h0 : ∀ k : Fin 64, x0 (ix2 p k) = A0 (ix2 r k))
    (hw : ∀ k : Fin 64, w (ix2 k q) = W (ix2 k q)) (hb : b (ix2 0 q) = B (ix2 0 q)) :
    rootRows g x0 w b (ix2 p q) = rootRows G A0 W B (ix2 r q) := by
  rw [rootRows_apply, rootRows_apply]
  simp only [hg, h0, hw, hb]

end Cert.GNN

end
-- ==== Proof.Pair0.lean ====
/-
  The first pair-message launch: what its output array holds when the launch ends.

  The launch walks 100 grid points. Point `t` loads rows `10000·t … 10000·t + 9999` of the two gathered feature
  arrays and the whole of both weights and both bias rows, and writes back the same rows of the output. A row of the
  pair message depends on that row alone, so what point `t` writes back is block `t` of the pair message of the whole
  arrays; the 100 blocks tile the 1,000,000 rows, so the output array ends as the pair message of the arrays the launch
  found.
-/
import proofs.«140166_j34076270526866_1_alg».proof.Proof.Gen.KernelIdeal.Frame
import proofs.«140166_j34076270526866_1_alg».proof.Proof.Pay
import proofs.«140166_j34076270526866_1_alg».proof.Proof.RowsAt

set_option maxRecDepth 16384

noncomputable section

namespace Cert.GNN.Pair0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two feature windows and the output move one block of rows per point; the weights
    and the bias rows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `10000·t + p` of a 1,000,000-row array, as an index. -/
abbrev rowOf (t : Fin cfg0.N) (p : Fin 10000) : Fin 1000000 :=
  ⟨t.val * 10000 + p.val, by have h : t.val < 100 := t.isLt; have := p.isLt; omega⟩

theorem xj_at (c : Dev nD) (t : Fin cfg0.N) (p : Fin 10000) (k : Fin 64) :
    iblk0 V c 0 t (ix2 p k) = V c main_v10 (ix2 (rowOf t p) k) := by
  show V c main_v10 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 10000 + 1 * p.val = t.val * 10000 + p.val; omega
  | ⟨1, _⟩ => show win0_0.index t (1 : Fin 2) * 64 + 1 * k.val = k.val; omega

theorem xi_at (c : Dev nD) (t : Fin cfg0.N) (p : Fin 10000) (k : Fin 64) :
    iblk0 V c 1 t (ix2 p k) = V c main_v17 (ix2 (rowOf t p) k) := by
  show V c main_v17 (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 10000 + 1 * p.val = t.val * 10000 + p.val; omega
  | ⟨1, _⟩ => show win0_1.index t (1 : Fin 2) * 64 + 1 * k.val = k.val; omega

theorem w1_at (c : Dev nD) (t : Fin cfg0.N) (k q : Fin 64) : iblk0 V c 2 t (ix2 k q) = V c main_arg5 (ix2 k q) := by
  show V c main_arg5 (((cfg0.win 2).blk t).view.emb (ix2 k q)) = _
  refine congrArg _ (funext fun a => Fin.ext ?_)
  obtain ⟨-, -, -, -, e0, e1, -⟩ := idx_facts t
  match a with
  | ⟨0, _⟩ => show win0_2.index t (0 : Fin 2) * 64 + 1 * k.val = k.val; omega
  | ⟨1, _⟩ => show win0_2.index t (1 : Fin 2) * 64 + 1 * q.val = q.val; omega

theorem b1_at (c : Dev nD) (t : Fin cfg0.N) (q : Fin 64) : iblk0 V c 3 t (ix2 0 q) = V c main_v18 (ix2 0 q) := by
  show V c main_v18 (((cfg0.win 3).blk t).view.emb (ix2 0 q)) = _
  refine congrArg _ (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 64 + 1 * q.val = q.val; omega

theorem w2_at (c : Dev nD) (t : Fin cfg0.N) (k q : Fin 64) : iblk0 V c 4 t (ix2 k q) = V c main_arg7 (ix2 k q) := by
  show V c main_arg7 (((cfg0.win 4).blk t).view.emb (ix2 k q)) = _
  refine congrArg _ (funext fun a => Fin.ext ?_)
  obtain ⟨-, -, -, -, -, -, -, -, e0, e1, -⟩ := idx_facts t
  match a with
  | ⟨0, _⟩ => show win0_4.index t (0 : Fin 2) * 64 + 1 * k.val = k.val; omega
  | ⟨1, _⟩ => show win0_4.index t (1 : Fin 2) * 64 + 1 * q.val = q.val; omega

theorem b2_at (c : Dev nD) (t : Fin cfg0.N) (q : Fin 64) : iblk0 V c 5 t (ix2 0 q) = V c main_v19 (ix2 0 q) := by
  show V c main_v19 (((cfg0.win 5).blk t).view.emb (ix2 0 q)) = _
  refine congrArg _ (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 64 + 1 * q.val = q.val; omega

/-- The pair message of the arrays the launch found. -/
abbrev whole (c : Dev nD) : FVec Ideal S1000000x64 .f32 :=
  ngcfRows (M := 1000000) (V c main_v10) (V c main_v17) (V c main_arg5) (V c main_v18) (V c main_arg7) (V c main_v19)

/-- Entry `(p, q)` of the output's block at point `t` is entry `(10000·t + p, q)` of the array. -/
theorem out_emb (t : Fin cfg0.N) (p : Fin 10000) (q : Fin 64) :
    ((cfg0.win 6).blk t).view.emb (ix2 p q) = ix2 (rowOf t p) q := by
  funext a; apply Fin.ext
  obtain ⟨-, -, -, -, -, -, -, -, -, -, -, -, e0, e1⟩ := idx_facts t
  match a with
  | ⟨0, _⟩ => show win0_6.index t (0 : Fin 2) * 10000 + 1 * p.val = t.val * 10000 + p.val; omega
  | ⟨1, _⟩ => show win0_6.index t (1 : Fin 2) * 64 + 1 * q.val = q.val; omega

/-- What point `t` writes back is block `t` of the pair message of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin]
  simp only [View.ld_unit_zero (S := S10000x64) origin, View.ld_unit_zero (S := S64x64) origin, View.ld_unit_zero (S := S1x64) origin]
  rw [pay0_eq]
  funext y
  obtain ⟨p, q, rfl⟩ : ∃ (p : Fin 10000) (q : Fin 64), y = ix2 p q := ⟨y 0, y 1, eq_ix2 y⟩
  show ngcfRows (M := 10000) (iblk0 V c 0 t) (iblk0 V c 1 t) (iblk0 V c 2 t) (iblk0 V c 3 t) (iblk0 V c 4 t) (iblk0 V c 5 t) (ix2 p q)
    = whole V c (((cfg0.win 6).blk t).view.emb (ix2 p q))
  rw [out_emb]
  exact ngcfRows_row _ _ _ _ _ _ _ _ _ _ _ _ p (rowOf t p) q (xj_at V c t p) (xi_at V c t p) (fun k => w1_at V c t k q)
    (fun k => w2_at V c t k q) (b1_at V c t q) (b2_at V c t q)

/-- An index of the array is in point `t`'s block iff each coordinate is in the block's range on its axis. -/
theorem mem_blk (t : Fin cfg0.N) (i : S1000000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v20).slice (win0_6.rect t)).set ↔ _
  rw [View.set_slice_whole, Rect.mem_set_unit]
  exact Iff.rfl

/-- Every row lies in the block of the point numbered by its thousands-of-ten: the blocks tile the array. -/
theorem cover (i : S1000000x64.Idx) :
    ∃ t : Fin cfg0.N, (cfg0.win 6).flush t = true ∧ i ∈ ((cfg0.win 6).blk t).view.set := by
  have hi0 : (i 0).val < 1000000 := (i 0).isLt
  have hi1 : (i 1).val < 64 := (i 1).isLt
  have ht : (i 0).val / 10000 < cfg0.N := by show _ < 100; omega
  refine ⟨⟨(i 0).val / 10000, ht⟩, flush0_6 _, ?_⟩
  rw [mem_blk]
  obtain ⟨-, -, -, -, -, -, -, -, -, -, -, -, e0, e1⟩ := idx_facts ⟨(i 0).val / 10000, ht⟩
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 64 ≤ (i 1).val
      ∧ (i 1).val < win0_6.index ⟨(i 0).val / 10000, ht⟩ (1 : Fin 2) * 64 + 64
    rw [e1]; omega

/-- The output array after the launch. -/
theorem array_eq (c : Dev nD) : (dat0 V c).arrAt 6 cfg0.N = whole V c :=
  (dat0 V c).arrAt_eq_of_cover 6 _ (fun t _ => flushed_eq V c t) cover

end Cert.GNN.Pair0

end
-- ==== Proof.Lin1.lean ====
/-
  The relation-message launch: what its output array holds when the launch ends.

  100 grid points; point `t` loads rows `10000·t … 10000·t + 9999` of the gathered entity features and the whole
  relation weight, and writes back the same rows of the output. A row of `x·w` depends on that row of `x` alone, so
  point `t` writes back block `t` of the product of the whole arrays, and the 100 blocks tile the 1,000,000 rows.
-/
import proofs.«140166_j34076270526866_1_alg».proof.Proof.Gen.KernelIdeal.Frame
import proofs.«140166_j34076270526866_1_alg».proof.Proof.Pay
import proofs.«140166_j34076270526866_1_alg».proof.Proof.RowsAt

set_option maxRecDepth 16384

noncomputable section

namespace Cert.GNN.Lin1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the features and the output move one block of rows per point; the weight stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `10000·t + p` of a 1,000,000-row array, as an index. -/
abbrev rowOf (t : Fin cfg1.N) (p : Fin 10000) : Fin 1000000 :=
  ⟨t.val * 10000 + p.val, by have h : t.val < 100 := t.isLt; have := p.isLt; omega⟩

theorem x_at (c : Dev nD) (t : Fin cfg1.N) (p : Fin 10000) (k : Fin 64) :
    iblk1 V c 0 t (ix2 p k) = V c main_v34 (ix2 (rowOf t p) k) := by
  show V c main_v34 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 10000 + 1 * p.val = t.val * 10000 + p.val; omega
  | ⟨1, _⟩ => show win1_0.index t (1 : Fin 2) * 64 + 1 * k.val = k.val; omega

theorem w_at (c : Dev nD) (t : Fin cfg1.N) (k q : Fin 64) : iblk1 V c 1 t (ix2 k q) = V c main_arg9 (ix2 k q) := by
  show V c main_arg9 (((cfg1.win 1).blk t).view.emb (ix2 k q)) = _
  refine congrArg _ (funext fun a => Fin.ext ?_)
  obtain ⟨-, -, e0, e1, -⟩ := idx_facts t
  match a with
  | ⟨0, _⟩ => show win1_1.index t (0 : Fin 2) * 64 + 1 * k.val = k.val; omega
  | ⟨1, _⟩ => show win1_1.index t (1 : Fin 2) * 64 + 1 * q.val = q.val; omega

/-- The relation message of the arrays the launch found. -/
abbrev whole (c : Dev nD) : FVec Ideal S1000000x64 .f32 := linRows (M := 1000000) (V c main_v34) (V c main_arg9)

/-- Entry `(p, q)` of the output's block at point `t` is entry `(10000·t + p, q)` of the array. -/
theorem out_emb (t : Fin cfg1.N) (p : Fin 10000) (q : Fin 64) :
    ((cfg1.win 2).blk t).view.emb (ix2 p q) = ix2 (rowOf t p) q := by
  funext a; apply Fin.ext
  obtain ⟨-, -, -, -, e0, e1⟩ := idx_facts t
  match a with
  | ⟨0, _⟩ => show win1_2.index t (0 : Fin 2) * 10000 + 1 * p.val = t.val * 10000 + p.val; omega
  | ⟨1, _⟩ => show win1_2.index t (1 : Fin 2) * 64 + 1 * q.val = q.val; omega

/-- What point `t` writes back is block `t` of the product of the whole arrays. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero origin]
  simp only [View.ld_unit_zero (S := S10000x64) origin, View.ld_unit_zero (S := S64x64) origin]
  rw [pay1_eq]
  funext y
  obtain ⟨p, q, rfl⟩ : ∃ (p : Fin 10000) (q : Fin 64), y = ix2 p q := ⟨y 0, y 1, eq_ix2 y⟩
  show linRows (M := 10000) (iblk1 V c 0 t) (iblk1 V c 1 t) (ix2 p q) = whole V c (((cfg1.win 2).blk t).view.emb (ix2 p q))
  rw [out_emb]
  exact linRows_row _ _ _ _ p (rowOf t p) q (x_at V c t p) (fun k => w_at V c t k q)

/-- An index of the array is in point `t`'s block iff each coordinate is in the block's range on its axis. -/
theorem mem_blk (t : Fin cfg1.N) (i : S1000000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v35).slice (win1_2.rect t)).set ↔ _
  rw [View.set_slice_whole, Rect.mem_set_unit]
  exact Iff.rfl

/-- Every row lies in the block of the point numbered by its row over 10,000: the blocks tile the array. -/
theorem cover (i : S1000000x64.Idx) :
    ∃ t : Fin cfg1.N, (cfg1.win 2).flush t = true ∧ i ∈ ((cfg1.win 2).blk t).view.set := by
  have hi0 : (i 0).val < 1000000 := (i 0).isLt
  have hi1 : (i 1).val < 64 := (i 1).isLt
  have ht : (i 0).val / 10000 < cfg1.N := by show _ < 100; omega
  refine ⟨⟨(i 0).val / 10000, ht⟩, flush1_2 _, ?_⟩
  rw [mem_blk]
  obtain ⟨-, -, -, -, e0, e1⟩ := idx_facts ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e1]; omega

/-- The output array after the launch. -/
theorem array_eq (c : Dev nD) : (dat1 V c).arrAt 2 cfg1.N = whole V c :=
  (dat1 V c).arrAt_eq_of_cover 2 _ (fun t _ => flushed_eq V c t) cover

end Cert.GNN.Lin1

end
-- ==== Proof.Root2.lean ====
/-
  The root-update launch: what its output array holds when the launch ends.

  40 grid points over 400,000 nodes; point `t` loads rows `10000·t … 10000·t + 9999` of the mean aggregate and of the
  entity features, the whole root weight and the bias row, and writes back the same rows of the output. A row of
  `(agg + x·w) + b` depends on that row alone, so point `t` writes back block `t` of the update of the whole arrays,
  and the 40 blocks tile the 400,000 rows.
-/
import proofs.«140166_j34076270526866_1_alg».proof.Proof.Gen.KernelIdeal.Frame
import proofs.«140166_j34076270526866_1_alg».proof.Proof.Pay
import proofs.«140166_j34076270526866_1_alg».proof.Proof.RowsAt

set_option maxRecDepth 16384

noncomputable section

namespace Cert.GNN.Root2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the aggregate, the features and the output move one block of rows per point; the
    weight and the bias row stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `10000·t + p` of a 400,000-row array, as an index. -/
abbrev rowOf (t : Fin cfg2.N) (p : Fin 10000) : Fin 400000 :=
  ⟨t.val * 10000 + p.val, by have h : t.val < 40 := t.isLt; have := p.isLt; omega⟩

theorem agg_at (c : Dev nD) (t : Fin cfg2.N) (p : Fin 10000) (q : Fin 64) :
    iblk2 V c 0 t (ix2 p q) = V c main_v47 (ix2 (rowOf t p) q) := by
  show V c main_v47 (((cfg2.win 0).blk t).view.emb (ix2 p q)) = _
  refine congrArg _ (funext fun a => Fin.ext ?_)
  obtain ⟨e0, e1, -⟩ := idx_facts t
  match a with
  | ⟨0, _⟩ => show win2_0.index t (0 : Fin 2) * 10000 + 1 * p.val = t.val * 10000 + p.val; omega
  | ⟨1, _⟩ => show win2_0.index t (1 : Fin 2) * 64 + 1 * q.val = q.val; omega

theorem x_at (c : Dev nD) (t : Fin cfg2.N) (p : Fin 10000) (k : Fin 64) :
    iblk2 V c 1 t (ix2 p k) = V c main_arg2 (ix2 (rowOf t p) k) := by
  show V c main_arg2 (((cfg2.win 1).blk t).view.emb (ix2 p k)) = _
  refine congrArg _ (funext fun a => Fin.ext ?_)
  obtain ⟨-, -, e0, e1, -⟩ := idx_facts t
  match a with
  | ⟨0, _⟩ => show win2_1.index t (0 : Fin 2) * 10000 + 1 * p.val = t.val * 10000 + p.val; omega
  | ⟨1, _⟩ => show win2_1.index t (1 : Fin 2) * 64 + 1 * k.val = k.val; omega

theorem w_at (c : Dev nD) (t : Fin cfg2.N) (k q : Fin 64) : iblk2 V c 2 t (ix2 k q) = V c main_arg10 (ix2 k q) := by
  show V c main_arg10 (((cfg2.win 2).blk t).view.emb (ix2 k q)) = _
  refine congrArg _ (funext fun a => Fin.ext ?_)
  obtain ⟨-, -, -, -, e0, e1, -⟩ := idx_facts t
  match a with
  | ⟨0, _⟩ => show win2_2.index t (0 : Fin 2) * 64 + 1 * k.val = k.val; omega
  | ⟨1, _⟩ => show win2_2.index t (1 : Fin 2) * 64 + 1 * q.val = q.val; omega

theorem b_at (c : Dev nD) (t : Fin cfg2.N) (q : Fin 64) : iblk2 V c 3 t (ix2 0 q) = V c main_v48 (ix2 0 q) := by
  show V c main_v48 (((cfg2.win 3).blk t).view.emb (ix2 0 q)) = _
  refine congrArg _ (funext fun a => Fin.ext ?_)
  obtain ⟨-, -, -, -, -, -, e0, e1, -⟩ := idx_facts t
  match a with
  | ⟨0, _⟩ => show win2_3.index t (0 : Fin 2) * 1 + 1 * 0 = 0; omega
  | ⟨1, _⟩ => show win2_3.index t (1 : Fin 2) * 64 + 1 * q.val = q.val; omega

/-- The root update of the arrays the launch found. -/
abbrev whole (c : Dev nD) : FVec Ideal S400000x64 .f32 :=
  rootRows (M := 400000) (V c main_v47) (V c main_arg2) (V c main_arg10) (V c main_v48)

/-- Entry `(p, q)` of the output's block at point `t` is entry `(10000·t + p, q)` of the array. -/
theorem out_emb (t : Fin cfg2.N) (p : Fin 10000) (q : Fin 64) :
    ((cfg2.win 4).blk t).view.emb (ix2 p q) = ix2 (rowOf t p) q := by
  funext a; apply Fin.ext
  obtain ⟨-, -, -, -, -, -, -, -, e0, e1⟩ := idx_facts t
  match a with
  | ⟨0, _⟩ => show win2_4.index t (0 : Fin 2) * 10000 + 1 * p.val = t.val * 10000 + p.val; omega
  | ⟨1, _⟩ => show win2_4.index t (1 : Fin 2) * 64 + 1 * q.val = q.val; omega

/-- What point `t` writes back is block `t` of the update of the whole arrays. -/
theorem flushed_eq (c : Dev nD) (t : Fin cfg2.N) :
    (dat2 V c).flushed 4 t = ((cfg2.win 4).blk t).view.read (Elt Ideal) (whole V c) := by
  show (cfg2.win 4).cut (grid2.coords t) ((dat2 V c).after 4 t) = _
  rw [after2_4]
  unfold out2_4
  rw [View.canon_unit_zero origin]
  simp only [View.ld_unit_zero (S := S10000x64) origin, View.ld_unit_zero (S := S64x64) origin, View.ld_unit_zero (S := S1x64) origin]
  rw [pay2_eq]
  funext y
  obtain ⟨p, q, rfl⟩ : ∃ (p : Fin 10000) (q : Fin 64), y = ix2 p q := ⟨y 0, y 1, eq_ix2 y⟩
  show rootRows (M := 10000) (iblk2 V c 0 t) (iblk2 V c 1 t) (iblk2 V c 2 t) (iblk2 V c 3 t) (ix2 p q)
    = whole V c (((cfg2.win 4).blk t).view.emb (ix2 p q))
  rw [out_emb]
  exact rootRows_row _ _ _ _ _ _ _ _ p (rowOf t p) q (agg_at V c t p q) (x_at V c t p) (fun k => w_at V c t k q) (b_at V c t q)

/-- An index of the array is in point `t`'s block iff each coordinate is in the block's range on its axis. -/
theorem mem_blk (t : Fin cfg2.N) (i : S400000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v49).slice (win2_4.rect t)).set ↔ _
  rw [View.set_slice_whole, Rect.mem_set_unit]
  exact Iff.rfl

/-- Every row lies in the block of the point numbered by its row over 10,000: the blocks tile the array. -/
theorem cover (i : S400000x64.Idx) :
    ∃ t : Fin cfg2.N, (cfg2.win 4).flush t = true ∧ i ∈ ((cfg2.win 4).blk t).view.set := by
  have hi0 : (i 0).val < 400000 := (i 0).isLt
  have hi1 : (i 1).val < 64 := (i 1).isLt
  have ht : (i 0).val / 10000 < cfg2.N := by show _ < 40; omega
  refine ⟨⟨(i 0).val / 10000, ht⟩, flush2_4 _, ?_⟩
  rw [mem_blk]
  obtain ⟨-, -, -, -, -, -, -, -, e0, e1⟩ := idx_facts ⟨(i 0).val / 10000, ht⟩
  intro a
  match a with
  | ⟨0, _⟩ =>
    show win2_4.index ⟨(i 0).val / 10000, ht⟩ (0 : Fin 2) * 10000 ≤ (i 0).val
      ∧ (i 0).val < win2_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, ht⟩ (1 : Fin 2) * 64 ≤ (i 1).val
      ∧ (i 1).val < win2_4.index ⟨(i 0).val / 10000, ht⟩ (1 : Fin 2) * 64 + 64
    rw [e1]; omega

/-- The output array after the launch. -/
theorem array_eq (c : Dev nD) : (dat2 V c).arrAt 4 cfg2.N = whole V c :=
  (dat2 V c).arrAt_eq_of_cover 4 _ (fun t _ => flushed_eq V c t) cover

end Cert.GNN.Root2

end
-- ==== Proof.Pair3.lean ====
/-
  The second pair-message launch: what its output array holds when the launch ends.

  The launch walks 100 grid points. Point `t` loads rows `10000·t … 10000·t + 9999` of the two gathered feature
  arrays and the whole of both weights and both bias rows, and writes back the same rows of the output. A row of the
  pair message depends on that row alone, so what point `t` writes back is block `t` of the pair message of the whole
  arrays; the 100 blocks tile the 1,000,000 rows, so the output array ends as the pair message of the arrays the launch
  found.
-/
import proofs.«140166_j34076270526866_1_alg».proof.Proof.Gen.KernelIdeal.Frame
import proofs.«140166_j34076270526866_1_alg».proof.Proof.Pay
import proofs.«140166_j34076270526866_1_alg».proof.Proof.RowsAt

set_option maxRecDepth 16384

noncomputable section

namespace Cert.GNN.Pair3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two feature windows and the output move one block of rows per point; the weights
    and the bias rows stay at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `10000·t + p` of a 1,000,000-row array, as an index. -/
abbrev rowOf (t : Fin cfg3.N) (p : Fin 10000) : Fin 1000000 :=
  ⟨t.val * 10000 + p.val, by have h : t.val < 100 := t.isLt; have := p.isLt; omega⟩

theorem xj_at (c : Dev nD) (t : Fin cfg3.N) (p : Fin 10000) (k : Fin 64) :
    iblk3 V c 0 t (ix2 p k) = V c main_v59 (ix2 (rowOf t p) k) := by
  show V c main_v59 (((cfg3.win 0).blk t).view.emb (ix2 p k)) = _
  refine congrArg _ (funext fun a => Fin.ext ?_)
  obtain ⟨e0, e1, -⟩ := idx_facts t
  match a with
  | ⟨0, _⟩ => show win3_0.index t (0 : Fin 2) * 10000 + 1 * p.val = t.val * 10000 + p.val; omega
  | ⟨1, _⟩ => show win3_0.index t (1 : Fin 2) * 64 + 1 * k.val = k.val; omega

theorem xi_at (c : Dev nD) (t : Fin cfg3.N) (p : Fin 10000) (k : Fin 64) :
    iblk3 V c 1 t (ix2 p k) = V c main_v66 (ix2 (rowOf t p) k) := by
  show V c main_v66 (((cfg3.win 1).blk t).view.emb (ix2 p k)) = _
  refine congrArg _ (funext fun a => Fin.ext ?_)
  obtain ⟨-, -, e0, e1, -⟩ := idx_facts t
  match a with
  | ⟨0, _⟩ => show win3_1.index t (0 : Fin 2) * 10000 + 1 * p.val = t.val * 10000 + p.val; omega
  | ⟨1, _⟩ => show win3_1.index t (1 : Fin 2) * 64 + 1 * k.val = k.val; omega

theorem w1_at (c : Dev nD) (t : Fin cfg3.N) (k q : Fin 64) : iblk3 V c 2 t (ix2 k q) = V c main_arg5 (ix2 k q) := by
  show V c main_arg5 (((cfg3.win 2).blk t).view.emb (ix2 k q)) = _
  refine congrArg _ (funext fun a => Fin.ext ?_)
  obtain ⟨-, -, -, -, e0, e1, -⟩ := idx_facts t
  match a with
  | ⟨0, _⟩ => show win3_2.index t (0 : Fin 2) * 64 + 1 * k.val = k.val; omega
  | ⟨1, _⟩ => show win3_2.index t (1 : Fin 2) * 64 + 1 * q.val = q.val; omega

theorem b1_at (c : Dev nD) (t : Fin cfg3.N) (q : Fin 64) : iblk3 V c 3 t (ix2 0 q) = V c main_v67 (ix2 0 q) := by
  show V c main_v67 (((cfg3.win 3).blk t).view.emb (ix2 0 q)) = _
  refine congrArg _ (funext fun a => Fin.ext ?_)
  obtain ⟨-, -, -, -, -, -, e0, e1, -⟩ := idx_facts t
  match a with
  | ⟨0, _⟩ => show win3_3.index t (0 : Fin 2) * 1 + 1 * 0 = 0; omega
  | ⟨1, _⟩ => show win3_3.index t (1 : Fin 2) * 64 + 1 * q.val = q.val; omega

theorem w2_at (c : Dev nD) (t : Fin cfg3.N) (k q : Fin 64) : iblk3 V c 4 t (ix2 k q) = V c main_arg7 (ix2 k q) := by
  show V c main_arg7 (((cfg3.win 4).blk t).view.emb (ix2 k q)) = _
  refine congrArg _ (funext fun a => Fin.ext ?_)
  obtain ⟨-, -, -, -, -, -, -, -, e0, e1, -⟩ := idx_facts t
  match a with
  | ⟨0, _⟩ => show win3_4.index t (0 : Fin 2) * 64 + 1 * k.val = k.val; omega
  | ⟨1, _⟩ => show win3_4.index t (1 : Fin 2) * 64 + 1 * q.val = q.val; omega

theorem b2_at (c : Dev nD) (t : Fin cfg3.N) (q : Fin 64) : iblk3 V c 5 t (ix2 0 q) = V c main_v68 (ix2 0 q) := by
  show V c main_v68 (((cfg3.win 5).blk t).view.emb (ix2 0 q)) = _
  refine congrArg _ (funext fun a => Fin.ext ?_)
  obtain ⟨-, -, -, -, -, -, -, -, -, -, e0, e1, -⟩ := idx_facts t
  match a with
  | ⟨0, _⟩ => show win3_5.index t (0 : Fin 2) * 1 + 1 * 0 = 0; omega
  | ⟨1, _⟩ => show win3_5.index t (1 : Fin 2) * 64 + 1 * q.val = q.val; omega

/-- The pair message of the arrays the launch found. -/
abbrev whole (c : Dev nD) : FVec Ideal S1000000x64 .f32 :=
  ngcfRows (M := 1000000) (V c main_v59) (V c main_v66) (V c main_arg5) (V c main_v67) (V c main_arg7) (V c main_v68)

/-- Entry `(p, q)` of the output's block at point `t` is entry `(10000·t + p, q)` of the array. -/
theorem out_emb (t : Fin cfg3.N) (p : Fin 10000) (q : Fin 64) :
    ((cfg3.win 6).blk t).view.emb (ix2 p q) = ix2 (rowOf t p) q := by
  funext a; apply Fin.ext
  obtain ⟨-, -, -, -, -, -, -, -, -, -, -, -, e0, e1⟩ := idx_facts t
  match a with
  | ⟨0, _⟩ => show win3_6.index t (0 : Fin 2) * 10000 + 1 * p.val = t.val * 10000 + p.val; omega
  | ⟨1, _⟩ => show win3_6.index t (1 : Fin 2) * 64 + 1 * q.val = q.val; omega

/-- What point `t` writes back is block `t` of the pair message of the whole arrays. -/
theorem flushed_eq (c : Dev nD) (t : Fin cfg3.N) :
    (dat3 V c).flushed 6 t = ((cfg3.win 6).blk t).view.read (Elt Ideal) (whole V c) := by
  show (cfg3.win 6).cut (grid3.coords t) ((dat3 V c).after 6 t) = _
  rw [after3_6]
  unfold out3_6
  rw [View.canon_unit_zero origin]
  simp only [View.ld_unit_zero (S := S10000x64) origin, View.ld_unit_zero (S := S64x64) origin, View.ld_unit_zero (S := S1x64) origin]
  rw [pay3_eq]
  funext y
  obtain ⟨p, q, rfl⟩ : ∃ (p : Fin 10000) (q : Fin 64), y = ix2 p q := ⟨y 0, y 1, eq_ix2 y⟩
  show ngcfRows (M := 10000) (iblk3 V c 0 t) (iblk3 V c 1 t) (iblk3 V c 2 t) (iblk3 V c 3 t) (iblk3 V c 4 t) (iblk3 V c 5 t) (ix2 p q)
    = whole V c (((cfg3.win 6).blk t).view.emb (ix2 p q))
  rw [out_emb]
  exact ngcfRows_row _ _ _ _ _ _ _ _ _ _ _ _ p (rowOf t p) q (xj_at V c t p) (xi_at V c t p) (fun k => w1_at V c t k q)
    (fun k => w2_at V c t k q) (b1_at V c t q) (b2_at V c t q)

/-- An index of the array is in point `t`'s block iff each coordinate is in the block's range on its axis. -/
theorem mem_blk (t : Fin cfg3.N) (i : S1000000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v69).slice (win3_6.rect t)).set ↔ _
  rw [View.set_slice_whole, Rect.mem_set_unit]
  exact Iff.rfl

/-- Every row lies in the block of the point numbered by its thousands-of-ten: the blocks tile the array. -/
theorem cover (i : S1000000x64.Idx) :
    ∃ t : Fin cfg3.N, (cfg3.win 6).flush t = true ∧ i ∈ ((cfg3.win 6).blk t).view.set := by
  have hi0 : (i 0).val < 1000000 := (i 0).isLt
  have hi1 : (i 1).val < 64 := (i 1).isLt
  have ht : (i 0).val / 10000 < cfg3.N := by show _ < 100; omega
  refine ⟨⟨(i 0).val / 10000, ht⟩, flush3_6 _, ?_⟩
  rw [mem_blk]
  obtain ⟨-, -, -, -, -, -, -, -, -, -, -, -, e0, e1⟩ := idx_facts ⟨(i 0).val / 10000, ht⟩
  intro a
  match a with
  | ⟨0, _⟩ =>
    show win3_6.index ⟨(i 0).val / 10000, ht⟩ (0 : Fin 2) * 10000 ≤ (i 0).val
      ∧ (i 0).val < win3_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_6.index ⟨(i 0).val / 10000, ht⟩ (1 : Fin 2) * 64 ≤ (i 1).val
      ∧ (i 1).val < win3_6.index ⟨(i 0).val / 10000, ht⟩ (1 : Fin 2) * 64 + 64
    rw [e1]; omega

/-- The output array after the launch. -/
theorem array_eq (c : Dev nD) : (dat3 V c).arrAt 6 cfg3.N = whole V c :=
  (dat3 V c).arrAt_eq_of_cover 6 _ (fun t _ => flushed_eq V c t) cover

end Cert.GNN.Pair3

end
-- ==== Proof.Fold.lean ====
/-
  The contents of the two result buffers when @main returns, as functions of the argument arrays.

  @main is nine segments: host stretches and the four launches, alternating. A host stretch leaves in each buffer it
  writes its operation's value of what the stretch found, and every other buffer as found; a launch leaves its output
  array at the row-wise message of the arrays it found and every other buffer as found. Walking back from the last
  boundary, every buffer that matters is an argument array carried unchanged, or ids cut out of an edge list, or rows
  gathered at wrapped ids, or a message, or per-edge rows summed into nodes: the named functions of the specification.
-/
import proofs.«140166_j34076270526866_1_alg».proof.Proof.Gen.KernelIdeal.Frame
import proofs.«140166_j34076270526866_1_alg».proof.Proof.Spec
import proofs.«140166_j34076270526866_1_alg».proof.Proof.Pair0
import proofs.«140166_j34076270526866_1_alg».proof.Proof.Lin1
import proofs.«140166_j34076270526866_1_alg».proof.Proof.Root2
import proofs.«140166_j34076270526866_1_alg».proof.Proof.Pair3
import Idealize.ShloMosaic.Lib.StableHlo.Run

set_option maxRecDepth 16384

noncomputable section

namespace Cert.GNN

open Idealize.ShloMosaic Idealize.ShloMosaic.TcCoe Idealize.SL.Sem Idealize.ShloMosaic.StableHlo
open Cert.KernelIdeal Cert.KernelIdeal.Gen Cert.KernelIdeal.Facts₀ Cert.KernelIdeal.Facts

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## Each launch's output array at the launch's exit -/

theorem W2_out : W2 m ρ c (Proc.devRef .tc main_v20) = Pair0.whole (V1 m ρ) c :=
  (W2_arr m ρ c 6).trans (Pair0.array_eq (V1 m ρ) c)
theorem W4_out : W4 m ρ c (Proc.devRef .tc main_v35) = Lin1.whole (V3 m ρ) c :=
  (W4_arr m ρ c 2).trans (Lin1.array_eq (V3 m ρ) c)
theorem W6_out : W6 m ρ c (Proc.devRef .tc main_v49) = Root2.whole (V5 m ρ) c :=
  (W6_arr m ρ c 4).trans (Root2.array_eq (V5 m ρ) c)
theorem W8_out : W8 m ρ c (Proc.devRef .tc main_v69) = Pair3.whole (V7 m ρ) c :=
  (W8_arr m ρ c 6).trans (Pair3.array_eq (V7 m ρ) c)

/-- The two weights the first launch reads leave it as they entered: an input window writes nothing back. -/
theorem W2_arg5 : W2 m ρ c (Proc.devRef .tc main_arg5) = W1 m ρ c (Proc.devRef .tc main_arg5) :=
  (W2_arr m ρ c 2).trans (((dat0 (V1 m ρ) c).arrAt_in 2 rfl _).trans (A_eq0 (V1 m ρ) c 2))
theorem W2_arg7 : W2 m ρ c (Proc.devRef .tc main_arg7) = W1 m ρ c (Proc.devRef .tc main_arg7) :=
  (W2_arr m ρ c 4).trans (((dat0 (V1 m ρ) c).arrAt_in 4 rfl _).trans (A_eq0 (V1 m ρ) c 4))

/- One step back at a time: across a launch for a buffer that is none of its arrays (or one of the two weights above),
   across a host stretch by its operations' values. -/
set_option hygiene false in
local macro "descend" : tactic => `(tactic| repeat (first
  | (rw [W8_of_ne m ρ c]; rotate_left; decide)
  | (rw [W6_of_ne m ρ c]; rotate_left; decide)
  | (rw [W4_of_ne m ρ c]; rotate_left; decide)
  | (rw [W2_of_ne m ρ c]; rotate_left; decide)
  | rw [W2_arg5 m ρ c]
  | rw [W2_arg7 m ρ c]
  | (dsimp only [W9, W7, W5, W3, W1]; after_results_simp)))

/-! ## The first launch's output: the pair message along the edges, over the movie features -/

set_option maxHeartbeats 2000000 in
theorem W2_v20 : W2 m ρ c (Proc.devRef .tc main_v20)
    = ngcfRows (M := 1000000) (rowsAt2 (arg m c main_arg1) (srcRow (arg m c main_arg3))) (rowsAt2 (arg m c main_arg1) (dstRow (arg m c main_arg3)))
        (arg m c main_arg5) (asRow (arg m c main_arg6)) (arg m c main_arg7) (asRow (arg m c main_arg8)) := by
  rw [W2_out]
  dsimp only [Pair0.whole, V1]
  descend
  rfl

/-! ## The relation launch's output, the entity update, and the summed pair messages on the movie side -/

set_option maxHeartbeats 2000000 in
theorem W4_v35 : W4 m ρ c (Proc.devRef .tc main_v35)
    = linRows (M := 1000000) (rowsAt4 (arg m c main_arg2) (srcRow (arg m c main_arg4))) (arg m c main_arg9) := by
  rw [W4_out]
  dsimp only [Lin1.whole, V3]
  descend
  rfl

set_option maxHeartbeats 4000000 in
theorem W6_v49 : W6 m ρ c (Proc.devRef .tc main_v49)
    = entityUpd (arg m c main_arg2) (arg m c main_arg4) (arg m c main_arg9) (arg m c main_arg10) (arg m c main_arg11) := by
  rw [W6_out]
  dsimp only [Root2.whole, V5, W5]
  after_results_simp
  rw [W4_v35]
  descend
  rfl

set_option maxHeartbeats 4000000 in
theorem W6_v23 : W6 m ρ c (Proc.devRef .tc main_v23)
    = pairSum (arg m c main_arg1) (srcRow (arg m c main_arg3)) (dstRow (arg m c main_arg3))
        (arg m c main_arg5) (arg m c main_arg6) (arg m c main_arg7) (arg m c main_arg8) := by
  rw [W6_of_ne m ρ c main_v23 (by decide)]
  dsimp only [W5]
  after_results_simp
  rw [W4_of_ne m ρ c main_v23 (by decide)]
  dsimp only [W3]
  after_results_simp
  rw [W2_v20]
  descend
  rfl

theorem W6_arg1 : W6 m ρ c (Proc.devRef .tc main_arg1) = arg m c main_arg1 := by
  descend

/-! ## The second pair launch's output and what the last stretch reads beside it -/

set_option maxHeartbeats 4000000 in
theorem W8_v69 : W8 m ρ c (Proc.devRef .tc main_v69)
    = ngcfRows (M := 1000000) (rowsAt2 (arg m c main_arg0) (dstRow (arg m c main_arg3))) (rowsAt2 (arg m c main_arg0) (srcRow (arg m c main_arg3)))
        (arg m c main_arg5) (asRow (arg m c main_arg6)) (arg m c main_arg7) (asRow (arg m c main_arg8)) := by
  rw [W8_out]
  dsimp only [Pair3.whole, V7]
  descend
  rfl

theorem W8_v1 : W8 m ρ c (Proc.devRef .tc main_v1) = srcRow (arg m c main_arg3) := by
  descend
  rfl

theorem W8_arg0 : W8 m ρ c (Proc.devRef .tc main_arg0) = arg m c main_arg0 := by
  descend

/-! ## The two results -/

/-- The first result buffer ends at the user result of the argument arrays. -/
theorem W9_user : W9 m ρ c (Proc.devRef .tc main_v73)
    = userEmb (arg m c main_arg0) (arg m c main_arg3) (arg m c main_arg5) (arg m c main_arg6) (arg m c main_arg7) (arg m c main_arg8) := by
  show StableHlo.after hostOps4 (W8 m ρ c) (Proc.devRef .tc main_v73) = _
  after_results
  show beside (W8 m ρ c (Proc.devRef .tc main_arg0)) (segSum2 (W8 m ρ c (Proc.devRef .tc main_v1)) (W8 m ρ c (Proc.devRef .tc main_v69))) = _
  rw [W8_arg0, W8_v1, W8_v69]
  rfl

set_option maxHeartbeats 4000000 in
/-- The second result buffer ends at the movie result of the argument arrays. -/
theorem W9_movie : W9 m ρ c (Proc.devRef .tc main_v52)
    = movieEmb (arg m c main_arg1) (arg m c main_arg2) (arg m c main_arg3) (arg m c main_arg4) (arg m c main_arg5) (arg m c main_arg6)
        (arg m c main_arg7) (arg m c main_arg8) (arg m c main_arg9) (arg m c main_arg10) (arg m c main_arg11) := by
  show StableHlo.after hostOps4 (W8 m ρ c) (Proc.devRef .tc main_v52) = _
  after_results
  rw [W8_of_ne m ρ c main_v52 (by decide)]
  show StableHlo.after hostOps3 (W6 m ρ c) (Proc.devRef .tc main_v52) = _
  after_results
  show beside (W6 m ρ c (Proc.devRef .tc main_arg1))
    (addf (W6 m ρ c (Proc.devRef .tc main_v23))
      (extractStridedSlice S200000x64 ![0, 0] (W6 m ρ c (Proc.devRef .tc main_v49)) _)) = _
  rw [W6_arg1, W6_v23, W6_v49]
  rfl

end Cert.GNN

end
-- ==== Proof.RefSide.lean ====
/-
  The reference computes the two results of `Spec.lean`.

  Its program is the same chain of host operations — wrap the ids, gather the rows, sum the per-edge rows into their
  nodes — around three products on the host where the kernel launches its blocks. A host product read at entry
  `(r, q)` is the sum over `k` of `lhs (r, k) · rhs (k, q)`, and a bias vector broadcast first to a row and then over all
  rows is, at `(r, q)`, its entry `q`: so each message the reference forms is the row-wise message function of the same
  arrays. On the user side the reference first stacks the target ids over the source ids and reads the two rows back;
  reading row 0 or row 1 of a stack of two rows gives back that row.
-/
import proofs.«140166_j34076270526866_1_alg».proof.Proof.Gen.ReferenceIdeal.Run
import proofs.«140166_j34076270526866_1_alg».proof.Proof.Spec
import proofs.«140166_j34076270526866_1_alg».proof.Proof.LibDot
import Idealize.ShloMosaic.Lib.Pipeline.Value

set_option maxRecDepth 16384

noncomputable section

namespace Cert.GNN

open Idealize.ShloMosaic Idealize.ShloMosaic.TcCoe Idealize.ShloMosaic.ValueIdx Idealize.SL.Sem

section RefLemmas
open Cert.ReferenceIdeal Cert.ReferenceIdeal.Gen

/-- The host product of 1,000,000 rows against a 64 × 64 weight, at entry `(r, q)`. -/
theorem ref_dot_apply (x : FVec Ideal S1000000x64 .f32) (w : FVec Ideal S64x64 .f32) (r : Fin 1000000) (q : Fin 64) :
    Host.dotGeneral dot_S1000000x64_S64x64_S1000000x64_1_0_0_1_n_n none x w (ix2 r q)
      = ∑ k : Fin 64, x (ix2 r k) * w (ix2 k q) :=
  dotGeneral_plain_apply (M := 1000000) (K := 64) (N := 64) none .single x w r q

/-- The host product of 400,000 rows against a 64 × 64 weight, at entry `(r, q)`. -/
theorem ref_dot4_apply (x : FVec Ideal S400000x64 .f32) (w : FVec Ideal S64x64 .f32) (r : Fin 400000) (q : Fin 64) :
    Host.dotGeneral dot_S400000x64_S64x64_S400000x64_1_0_0_1_n_n none x w (ix2 r q)
      = ∑ k : Fin 64, x (ix2 r k) * w (ix2 k q) :=
  dotGeneral_plain_apply (M := 400000) (K := 64) (N := 64) none .single x w r q

/-- A bias vector broadcast to one row and then over 1,000,000 rows, at entry `(r, q)`, is its entry `q`. -/
theorem ref_bias_apply (b : FVec Ideal S64 .f32) (r : Fin 1000000) (q : Fin 64) :
    broadcastInDim S1000000x64 ![0, 1] bcast_S1x64_S1000000x64_0_1 (broadcastInDim S1x64 ![1] bcast_S64_S1x64_1 b) (ix2 r q)
      = b (ix1 q) :=
  (broadcastInDim_apply ![0, 1] bcast_S1x64_S1000000x64_0_1 _ (ix2 r q) (ix2 (0 : Fin 1) q)
      (fun a => match a with | ⟨0, _⟩ => rfl | ⟨1, _⟩ => rfl)).trans
    (broadcastInDim_apply ![1] bcast_S64_S1x64_1 b (ix2 (0 : Fin 1) q) (ix1 q) (fun a => match a with | ⟨0, _⟩ => rfl))

/-- A bias vector broadcast to one row and then over 400,000 rows, at entry `(r, q)`, is its entry `q`. -/
theorem ref_bias4_apply (b : FVec Ideal S64 .f32) (r : Fin 400000) (q : Fin 64) :
    broadcastInDim S400000x64 ![0, 1] bcast_S1x64_S400000x64_0_1 (broadcastInDim S1x64 ![1] bcast_S64_S1x64_1 b) (ix2 r q)
      = b (ix1 q) :=
  (broadcastInDim_apply ![0, 1] bcast_S1x64_S400000x64_0_1 _ (ix2 r q) (ix2 (0 : Fin 1) q)
      (fun a => match a with | ⟨0, _⟩ => rfl | ⟨1, _⟩ => rfl)).trans
    (broadcastInDim_apply ![1] bcast_S64_S1x64_1 b (ix2 (0 : Fin 1) q) (ix1 q) (fun a => match a with | ⟨0, _⟩ => rfl))

/-- A bias vector as one row, at entry `(0, q)`, is its entry `q`. -/
theorem asRow_apply (b : FVec Ideal S64 .f32) (q : Fin 64) : asRow b (ix2 (0 : Fin 1) q) = b (ix1 q) :=
  (shapeCast_addUnit_apply ![64] b _ (ix2 (0 : Fin 1) q)).trans
    (congrArg b (funext fun a => match a with | ⟨0, _⟩ => rfl))

end RefLemmas

section RefMessages
open Cert.ReferenceIdeal Cert.ReferenceIdeal.Gen

/-- The reference's pair message is the row-wise pair message of the same arrays. -/
theorem ref_ngcf (xj xi : FVec Ideal S1000000x64 .f32) (w1 : FVec Ideal S64x64 .f32) (b1 : FVec Ideal S64 .f32)
    (w2 : FVec Ideal S64x64 .f32) (b2 : FVec Ideal S64 .f32) :
    addf (addf (addf (Host.dotGeneral dot_S1000000x64_S64x64_S1000000x64_1_0_0_1_n_n none xj w1)
          (broadcastInDim S1000000x64 ![0, 1] bcast_S1x64_S1000000x64_0_1 (broadcastInDim S1x64 ![1] bcast_S64_S1x64_1 b1)))
        (Host.dotGeneral dot_S1000000x64_S64x64_S1000000x64_1_0_0_1_n_n none (mulf xi xj) w2))
      (broadcastInDim S1000000x64 ![0, 1] bcast_S1x64_S1000000x64_0_1 (broadcastInDim S1x64 ![1] bcast_S64_S1x64_1 b2))
      = ngcfRows (M := 1000000) xj xi w1 (asRow b1) w2 (asRow b2) := by
  funext j
  obtain ⟨r, q, rfl⟩ : ∃ (r : Fin 1000000) (q : Fin 64), j = ix2 r q := ⟨j 0, j 1, eq_ix2 j⟩
  rw [ngcfRows_apply, asRow_apply, asRow_apply, addf_apply, addf_apply, addf_apply, ref_dot_apply, ref_dot_apply,
    ref_bias_apply, ref_bias_apply]
  rfl

/-- The reference's relation message is the row-wise relation message of the same arrays. -/
theorem ref_lin (x : FVec Ideal S1000000x64 .f32) (w : FVec Ideal S64x64 .f32) :
    Host.dotGeneral dot_S1000000x64_S64x64_S1000000x64_1_0_0_1_n_n none x w = linRows (M := 1000000) x w := by
  funext j
  obtain ⟨r, q, rfl⟩ : ∃ (r : Fin 1000000) (q : Fin 64), j = ix2 r q := ⟨j 0, j 1, eq_ix2 j⟩
  rw [linRows_apply, ref_dot_apply]

/-- The reference's root update is the row-wise root update of the same arrays. -/
theorem ref_root (agg x : FVec Ideal S400000x64 .f32) (w : FVec Ideal S64x64 .f32) (b : FVec Ideal S64 .f32) :
    addf (addf agg (Host.dotGeneral dot_S400000x64_S64x64_S400000x64_1_0_0_1_n_n none x w))
      (broadcastInDim S400000x64 ![0, 1] bcast_S1x64_S400000x64_0_1 (broadcastInDim S1x64 ![1] bcast_S64_S1x64_1 b))
      = rootRows (M := 400000) agg x w (asRow b) := by
  funext j
  obtain ⟨r, q, rfl⟩ : ∃ (r : Fin 400000) (q : Fin 64), j = ix2 r q := ⟨j 0, j 1, eq_ix2 j⟩
  rw [rootRows_apply, asRow_apply, addf_apply, addf_apply, ref_dot4_apply, ref_bias4_apply]

end RefMessages

section RefStack
open Cert.ReferenceIdeal Cert.ReferenceIdeal.Gen

/-- Row 0 of a stack of two rows of ids is the first. -/
theorem ref_stack0 (a b : IVec S1000000 32) :
    shapeCast S1000000 (extractStridedSlice S1x1000000 ![0, 0]
        (concatenate S2x1000000 0 [⟨S1x1000000, broadcastInDim S1x1000000 ![1] bcast_S1000000_S1x1000000_1 a⟩,
          ⟨S1x1000000, broadcastInDim S1x1000000 ![1] bcast_S1000000_S1x1000000_1 b⟩] concatenates_S1x1000000_S1x1000000_S2x1000000_d0)
        slices_S2x1000000_S1x1000000_0_0) shapeCasts_S1x1000000_S1000000 = a := by
  funext j
  obtain ⟨p, rfl⟩ : ∃ p : Fin 1000000, j = ix1 p := ⟨j 0, eq_ix1 j⟩
  refine (shapeCast_dropUnit_apply ![1000000] _ _ (ix1 p)).trans ?_
  refine (extractStridedSlice_apply ![0, 0] _ slices_S2x1000000_S1x1000000_0_0 _ (ix2 (0 : Fin 2) p)
    (fun c => match c with | ⟨0, _⟩ => rfl | ⟨1, _⟩ => by show p.val = 0 + p.val; omega)).trans ?_
  refine (concatenate_pair_apply_left (t := S2x1000000) (s₁ := S1x1000000) (s₂ := S1x1000000) (0 : Fin 2)
    (broadcastInDim S1x1000000 ![1] bcast_S1000000_S1x1000000_1 a) (broadcastInDim S1x1000000 ![1] bcast_S1000000_S1x1000000_1 b)
    concatenates_S1x1000000_S1x1000000_S2x1000000_d0 (ix2 (0 : Fin 2) p) rfl
    (ix2 (0 : Fin 1) p) (fun c => match c with | ⟨0, _⟩ => rfl | ⟨1, _⟩ => rfl)).trans ?_
  exact broadcastInDim_apply ![1] bcast_S1000000_S1x1000000_1 a (ix2 (0 : Fin 1) p) (ix1 p) (fun c => match c with | ⟨0, _⟩ => rfl)

/-- Row 1 of a stack of two rows of ids is the second. -/
theorem ref_stack1 (a b : IVec S1000000 32) :
    shapeCast S1000000 (extractStridedSlice S1x1000000 ![1, 0]
        (concatenate S2x1000000 0 [⟨S1x1000000, broadcastInDim S1x1000000 ![1] bcast_S1000000_S1x1000000_1 a⟩,
          ⟨S1x1000000, broadcastInDim S1x1000000 ![1] bcast_S1000000_S1x1000000_1 b⟩] concatenates_S1x1000000_S1x1000000_S2x1000000_d0)
        slices_S2x1000000_S1x1000000_1_0) shapeCasts_S1x1000000_S1000000 = b := by
  funext j
  obtain ⟨p, rfl⟩ : ∃ p : Fin 1000000, j = ix1 p := ⟨j 0, eq_ix1 j⟩
  refine (shapeCast_dropUnit_apply ![1000000] _ _ (ix1 p)).trans ?_
  refine (extractStridedSlice_apply ![1, 0] _ slices_S2x1000000_S1x1000000_1_0 _ (ix2 (1 : Fin 2) p)
    (fun c => match c with | ⟨0, _⟩ => rfl | ⟨1, _⟩ => by show p.val = 0 + p.val; omega)).trans ?_
  refine (concatenate_pair_apply_right (t := S2x1000000) (s₁ := S1x1000000) (s₂ := S1x1000000) (0 : Fin 2)
    (broadcastInDim S1x1000000 ![1] bcast_S1000000_S1x1000000_1 a) (broadcastInDim S1x1000000 ![1] bcast_S1000000_S1x1000000_1 b)
    concatenates_S1x1000000_S1x1000000_S2x1000000_d0 (ix2 (1 : Fin 2) p) rfl rfl
    (ix2 (0 : Fin 1) p) (fun c hc => match c, hc with | ⟨0, _⟩, hc => absurd rfl hc | ⟨1, _⟩, _ => rfl) rfl).trans ?_
  exact broadcastInDim_apply ![1] bcast_S1000000_S1x1000000_1 b (ix2 (0 : Fin 1) p) (ix1 p) (fun c => match c with | ⟨0, _⟩ => rfl)

end RefStack

section Records

/-! The two programs carry the same gather and scatter records: the same fields over the same shapes. -/

theorem ref_gather2 :
    Cert.ReferenceIdeal.gather_S200000x64_S1000000x1_S1000000x64_1_0_n_n_0_1_164
      = Cert.KernelIdeal.gather_S200000x64_S1000000x1_S1000000x64_1_0_n_n_0_1_164 := rfl
theorem ref_gather4 :
    Cert.ReferenceIdeal.gather_S400000x64_S1000000x1_S1000000x64_1_0_n_n_0_1_164
      = Cert.KernelIdeal.gather_S400000x64_S1000000x1_S1000000x64_1_0_n_n_0_1_164 := rfl
theorem ref_scatter2 :
    Cert.ReferenceIdeal.scatter_S200000x64_S1000000x1_S1000000x64_1_0_0_1
      = Cert.KernelIdeal.scatter_S200000x64_S1000000x1_S1000000x64_1_0_0_1 := rfl
theorem ref_scatter4 :
    Cert.ReferenceIdeal.scatter_S400000x64_S1000000x1_S1000000x64_1_0_0_1
      = Cert.KernelIdeal.scatter_S400000x64_S1000000x1_S1000000x64_1_0_0_1 := rfl
theorem ref_scatterDeg :
    Cert.ReferenceIdeal.scatter_S400000_S1000000x1_S1000000_n_0_0_1
      = Cert.KernelIdeal.scatter_S400000_S1000000x1_S1000000_n_0_0_1 := rfl

end Records

/-- The reference's first result is the user result of its argument arrays. -/
theorem ref_user (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v101 (F := Ideal) m' c
      = userEmb (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) := by
  unfold Cert.ReferenceIdeal.Value.res_main_v101
  rw [ref_stack0, ref_stack1]
  rw [ref_ngcf]
  rw [ref_gather2, ref_scatter2]
  unfold userEmb beside pairSum segSum2 rowsAt2 wrap srcRow dstRow
  rfl

/-- The reference's second result is the movie result of its argument arrays. -/
theorem ref_movie (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v62 (F := Ideal) m' c
      = movieEmb (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11)) := by
  unfold Cert.ReferenceIdeal.Value.res_main_v62
  rw [ref_ngcf, ref_lin, ref_root]
  rw [ref_gather2, ref_gather4, ref_scatter2, ref_scatter4, ref_scatterDeg]
  unfold movieEmb beside pairSum entityUpd segSum2 segSum4 degree4 rowsAt2 rowsAt4 wrap srcRow dstRow
  rfl

end Cert.GNN

end
-- ==== Proof.lean ====
/-
  A two-sided graph network layer: a Pallas program of four launches against its jnp reference, at the ideal values.

  Both programs gather feature rows at the endpoints of 1,000,000 edges, form a message per edge, and sum the messages
  into their target nodes. The messages are row-wise: the pair message `((xj·w1 + b1) + (xi ∘ xj)·w2) + b2`, the relation
  message `x·w`, and the root update `(agg + x·w) + b`, each entry `(r, q)` a sum over `k` of row `r` against column
  `q`. The kernel program computes each of them block by block, 10,000 rows per grid point, narrowing the factors to a
  shorter float format first, which at the ideal values changes nothing; the reference computes each as one product on
  the host. Everything around the messages (cutting the ids out of the edge lists, wrapping ids below zero, the
  gathers, the sums into nodes, the division by the node degree, the slice and the concatenation) is the same chain of
  host operations in both programs, and is carried as named functions that are never opened.

  So the proof has three parts. Each launch's output array is the row-wise message of the arrays it found: what a grid
  point writes back is a block of that message, and the blocks tile the array. The kernel program's two result buffers,
  walked back through its nine segments, are the two results of the specification. The reference's two result terms
  are the same two results: its host products are the same sums, its twice-broadcast biases the same rows, and the
  stacked edge list it builds on the user side gives back the two rows it was built from.

  No law of the extended reals beyond the definitions is used, so the precondition (finite inputs) is never opened.
-/
import proofs.«140166_j34076270526866_1_alg».proof.Defs
import proofs.«140166_j34076270526866_1_alg».proof.Proof.Gen.Kernel
import proofs.«140166_j34076270526866_1_alg».proof.Proof.Gen.Kernel.Skeleton
import proofs.«140166_j34076270526866_1_alg».proof.Proof.Gen.Kernel.Launch
import proofs.«140166_j34076270526866_1_alg».proof.Proof.Gen.Kernel.Points
import proofs.«140166_j34076270526866_1_alg».proof.Proof.Gen.Kernel.Frame
import proofs.«140166_j34076270526866_1_alg».proof.Proof.Gen.KernelIdeal
import proofs.«140166_j34076270526866_1_alg».proof.Proof.Gen.KernelIdeal.Skeleton
import proofs.«140166_j34076270526866_1_alg».proof.Proof.Gen.KernelIdeal.Launch
import proofs.«140166_j34076270526866_1_alg».proof.Proof.Gen.KernelIdeal.Points
import proofs.«140166_j34076270526866_1_alg».proof.Proof.Gen.KernelIdeal.Frame
import proofs.«140166_j34076270526866_1_alg».proof.Proof.Gen.ReferenceIdeal
import proofs.«140166_j34076270526866_1_alg».proof.Proof.Gen.Pre_finite_inputs
import proofs.«140166_j34076270526866_1_alg».proof.Proof.Gen.ReferenceIdeal.Run
import proofs.«140166_j34076270526866_1_alg».proof.Proof.KRun
import proofs.«140166_j34076270526866_1_alg».proof.Proof.Fold
import proofs.«140166_j34076270526866_1_alg».proof.Proof.RefSide
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the user result and the movie result of those
    arguments: the kernel program by its launch and the walk back through its segments, the reference by its run. -/
theorem algebraic : Cert.algebraic_KernelIdeal_ReferenceIdeal := by
  intro m ρ m' ρ' _ hagree
  refine ⟨fun c => Cert.GNN.userEmb (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.GNN.movieEmb (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    ?_, ?_⟩
  · exact (θ_run Cert.KernelIdeal.defs _ _).mono
      (fun r h c => ⟨(h c).1.trans (Cert.GNN.W9_user m ρ c), (h c).2.1.trans (Cert.GNN.W9_movie m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11⟩ := hagree c
      rw [Cert.GNN.ref_user, a0, a3, a5, a6, a7, a8]
    · obtain ⟨a0, a1, a2, a3, a4, a5, a6, a7, a8, a9, a10, a11⟩ := hagree c
      rw [Cert.GNN.ref_movie, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
